-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩
abbrev S1x1 : Shape := ⟨2, ![1, 1]⟩
abbrev S5000x1 : Shape := ⟨2, ![5000, 1]⟩

abbrev nBuf : Space → Nat
  | .hbm => 91
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S850000x1, .f32⟩
  | .hbm, ⟨45, _⟩ => ⟨S50000x64, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x64, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000x64, .f32⟩
  | .hbm, ⟨66, _⟩ => ⟨S50000x64, .f32⟩
  | .hbm, ⟨67, _⟩ => ⟨S50000x32, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x32, .f32⟩
  | .hbm, ⟨77, _⟩ => ⟨S850000x32, .f32⟩
  | .hbm, ⟨78, _⟩ => ⟨S850000x32, .f32⟩
  | .hbm, ⟨79, _⟩ => ⟨S_, .f32⟩
  | .hbm, ⟨80, _⟩ => ⟨S50000x32, .f32⟩
  | .hbm, ⟨81, _⟩ => ⟨S850000x1, .i32⟩
  | .hbm, ⟨82, _⟩ => ⟨S50000x32, .f32⟩
  | .hbm, ⟨83, _⟩ => ⟨S1x32, .f32⟩
  | .hbm, ⟨84, _⟩ => ⟨S50000x32, .f32⟩
  | .hbm, ⟨85, _⟩ => ⟨S50000x32, .f32⟩
  | .hbm, ⟨86, _⟩ => ⟨S_, .f32⟩
  | .hbm, ⟨87, _⟩ => ⟨S50000x32, .f32⟩
  | .hbm, ⟨88, _⟩ => ⟨S50000x32, .f32⟩
  | .hbm, ⟨89, _⟩ => ⟨S1x1, .f32⟩
  | .hbm, ⟨90, _⟩ => ⟨S50000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S32x1, .f32⟩
  | .local _ .vmem, ⟨13, _⟩ => ⟨S1x1, .f32⟩
  | .local _ .vmem, ⟨14, _⟩ => ⟨S5000x32, .f32⟩
  | .local _ .vmem, ⟨15, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_cst : Ref sig .tc := ⟨.hbm, 86, rfl⟩
abbrev main_call1_v0 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  shapeCasts_S1_S1x1 : S1.ShapeCasts S1x1
  shapeCasts_S5000x32_S5000x32 : S5000x32.ShapeCasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  broadcasts_S5000x1_S5000x32 : S5000x1.Broadcasts S5000x32
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S50000x32.size a
  hwx1_2 : ∀ i : grid1.Coords, EltTy.bits .f32 = 32 ∨ (Rect.block (s := S50000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x1.size a ≤ S32x1.size a
  hwx2_1 : ∀ i : grid2.Coords, EltTy.bits .f32 = 32 ∨ (Rect.block (s := S32x1) S32x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S50000x32.size a
  hwx2_3 : ∀ i : grid2.Coords, EltTy.bits .f32 = 32 ∨ (Rect.block (s := S50000x32) S5000x32.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩
abbrev S50000x1 : Shape := ⟨2, ![50000, 1]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x64, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x64, .f32⟩
  | .hbm, ⟨54, _⟩ => ⟨S850000x1, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000x64, .f32⟩
  | .hbm, ⟨66, _⟩ => ⟨S50000x64, .f32⟩
  | .hbm, ⟨67, _⟩ => ⟨S50000x32, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x32, .f32⟩
  | .hbm, ⟨77, _⟩ => ⟨S850000x1, .f32⟩
  | .hbm, ⟨78, _⟩ => ⟨S850000x32, .f32⟩
  | .hbm, ⟨79, _⟩ => ⟨S850000x32, .f32⟩
  | .hbm, ⟨80, _⟩ => ⟨S_, .f32⟩
  | .hbm, ⟨81, _⟩ => ⟨S50000x32, .f32⟩
  | .hbm, ⟨82, _⟩ => ⟨S850000x1, .i32⟩
  | .hbm, ⟨83, _⟩ => ⟨S50000x32, .f32⟩
  | .hbm, ⟨84, _⟩ => ⟨S1x32, .f32⟩
  | .hbm, ⟨85, _⟩ => ⟨S50000x32, .f32⟩
  | .hbm, ⟨86, _⟩ => ⟨S50000x32, .f32⟩
  | .hbm, ⟨87, _⟩ => ⟨S_, .f32⟩
  | .hbm, ⟨88, _⟩ => ⟨S50000x32, .f32⟩
  | .hbm, ⟨89, _⟩ => ⟨S50000x32, .f32⟩
  | .hbm, ⟨90, _⟩ => ⟨S50000x1, .f32⟩
  | .hbm, ⟨91, _⟩ => ⟨S1x1, .f32⟩
  | .hbm, ⟨92, _⟩ => ⟨S50000x1, .f32⟩
  | .hbm, ⟨93, _⟩ => ⟨S50000x1, .f32⟩
  | .hbm, ⟨94, _⟩ => ⟨S50000x1, .f32⟩
  | .hbm, ⟨95, _⟩ => ⟨S50000x1, .f32⟩
  | .hbm, ⟨96, _⟩ => ⟨S_, .f32⟩
  | .hbm, ⟨97, _⟩ => ⟨S50000x1, .f32⟩
  | .hbm, ⟨98, _⟩ => ⟨S50000x1, .f32⟩
  | .hbm, ⟨99, _⟩ => ⟨S_, .f32⟩
  | .hbm, ⟨100, _⟩ => ⟨S50000x1, .f32⟩
  | .hbm, ⟨101, _⟩ => ⟨S50000x1, .f32⟩
  | .hbm, ⟨102, _⟩ => ⟨S50000x32, .f32⟩
  | .hbm, ⟨103, _⟩ => ⟨S50000x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x1_S50000x1_1_0_0_1_n_n_wf : DotDims.WF S50000x32 S32x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.Propagate.lean ====
/-
  The message-passing step both programs share, as ONE function of the five arrays it reads: the dense features
  `h` (what the layer's matrix product left), the edges' source and destination rows, the edges' weights as a
  column, and the bias. `layer h src dst n b = relu (Σ_{e : dst e = r} n e · h[src e, ·] + b)` row by row: a gather
  of the source rows, a product with the weight column spread over the feature columns, a scatter-add into the
  destination rows of a zero array, the bias, the maximum with zero. It is written with the reference program's own
  operations, so that the reference's stage is `layer` of its earlier stages by unfolding, and the kernel program's
  host stretch — the same operations over its own buffers — is `layer` of the buffers' contents.
-/
import proofs.«156644_j17540646437727_1_alg».proof.ReferenceIdeal
import proofs.«156644_j17540646437727_1_alg».proof.Proof.Gen.ReferenceIdeal

noncomputable section

namespace Cert.Spec

open Idealize.ShloMosaic Cert.ReferenceIdeal Cert.ReferenceIdeal.Gen

variable {F : FTy → Type} [FloatOps F]

/-- One propagation step on 64 feature columns: row `src e` of `h` (a negative index counting from the end), scaled by edge
    `e`'s weight, is added into row `dst e`, over all edges; the bias is added to every row and negatives are cut to zero. -/
def layer64 (h : (⟨S50000x64, .f32⟩ : BufTy).Contents (Elt F)) (src dst : (⟨S850000, .i32⟩ : BufTy).Contents (Elt F))
    (n : (⟨S850000x1, .f32⟩ : BufTy).Contents (Elt F)) (b : (⟨S64, .f32⟩ : BufTy).Contents (Elt F)) :
    (⟨S50000x64, .f32⟩ : BufTy).Contents (Elt F) :=
  maximumf
    (addf
      (Host.scatterAdd scatter_S50000x64_S850000x1_S850000x64_1_0_0_1
        (broadcastInDim S50000x64 ![] Facts₀.bcast_S_S50000x64 (constant S_ .f32 0x00000000#32))
        (broadcastInDim S850000x1 ![0] Facts₀.bcast_S850000_S850000x1_0 dst)
        (mulf
          (Host.gather gather_S50000x64_S850000x1_S850000x64_1_0_n_n_0_1_164 h
            (broadcastInDim S850000x1 ![0] Facts₀.bcast_S850000_S850000x1_0
              (select (cmpi .slt src (broadcastInDim S850000 ![] Facts₀.bcast_S_S850000 (constantI S_ 32 0#32)))
                (addi src (broadcastInDim S850000 ![] Facts₀.bcast_S_S850000 (constantI S_ 32 50000#32))) src)))
          (broadcastInDim S850000x64 ![0, 1] Facts₀.bcast_S850000x1_S850000x64_0_1 n)))
      (broadcastInDim S50000x64 ![0, 1] Facts₀.bcast_S1x64_S50000x64_0_1 (broadcastInDim S1x64 ![1] Facts₀.bcast_S64_S1x64_1 b)))
    (broadcastInDim S50000x64 ![] Facts₀.bcast_S_S50000x64 (constant S_ .f32 0x00000000#32))

/-- One propagation step on 32 feature columns: row `src e` of `h` (a negative index counting from the end), scaled by edge
    `e`'s weight, is added into row `dst e`, over all edges; the bias is added to every row and negatives are cut to zero. -/
def layer32 (h : (⟨S50000x32, .f32⟩ : BufTy).Contents (Elt F)) (src dst : (⟨S850000, .i32⟩ : BufTy).Contents (Elt F))
    (n : (⟨S850000x1, .f32⟩ : BufTy).Contents (Elt F)) (b : (⟨S32, .f32⟩ : BufTy).Contents (Elt F)) :
    (⟨S50000x32, .f32⟩ : BufTy).Contents (Elt F) :=
  maximumf
    (addf
      (Host.scatterAdd scatter_S50000x32_S850000x1_S850000x32_1_0_0_1
        (broadcastInDim S50000x32 ![] Facts₀.bcast_S_S50000x32 (constant S_ .f32 0x00000000#32))
        (broadcastInDim S850000x1 ![0] Facts₀.bcast_S850000_S850000x1_0 dst)
        (mulf
          (Host.gather gather_S50000x32_S850000x1_S850000x32_1_0_n_n_0_1_132 h
            (broadcastInDim S850000x1 ![0] Facts₀.bcast_S850000_S850000x1_0
              (select (cmpi .slt src (broadcastInDim S850000 ![] Facts₀.bcast_S_S850000 (constantI S_ 32 0#32)))
                (addi src (broadcastInDim S850000 ![] Facts₀.bcast_S_S850000 (constantI S_ 32 50000#32))) src)))
          (broadcastInDim S850000x32 ![0, 1] Facts₀.bcast_S850000x1_S850000x32_0_1 n)))
      (broadcastInDim S50000x32 ![0, 1] Facts₀.bcast_S1x32_S50000x32_0_1 (broadcastInDim S1x32 ![1] Facts₀.bcast_S32_S1x32_1 b)))
    (broadcastInDim S50000x32 ![] Facts₀.bcast_S_S50000x32 (constant S_ .f32 0x00000000#32))

end Cert.Spec

end
-- ==== Proof.HostSide.lean ====
/-
  The kernel program's host stretches, read as functions of the buffers they start from. Between its three regions
  the program runs the same host operations as the reference: it builds the edge lists and the edge weights
  (before the first region), and after each of the first two regions it gathers, weighs, scatter-adds, adds the
  bias and cuts at zero. Each stretch is read here at the one buffer a later region or stretch takes from it,
  as the reference's own stage functions of the contents the stretch started from.
-/
import proofs.«156644_j17540646437727_1_alg».proof.Proof.Gen.KernelIdeal.Frame
import proofs.«156644_j17540646437727_1_alg».proof.Proof.Gen.ReferenceIdeal.Read
import proofs.«156644_j17540646437727_1_alg».proof.Proof.Propagate
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F))

/-! ## Before the first region: the edge lists and the edge weights -/

/-- The edges' source rows: the first row of the edge array, then one self-loop per node. -/
theorem src_eq : after hostOps0 W (Proc.devRef .tc main_v3)
    = Cert.ReferenceIdeal.Read.val_main_v3 (F := F) (W (Proc.devRef .tc main_arg1)) := by
  after_results
  rfl

/-- The edges' destination rows: the second row of the edge array, then one self-loop per node. -/
theorem dst_eq : after hostOps0 W (Proc.devRef .tc main_v6)
    = Cert.ReferenceIdeal.Read.val_main_v6 (F := F) (W (Proc.devRef .tc main_arg1)) := by
  after_results
  rfl

set_option maxHeartbeats 2000000 in
/-- The edges' weights as a column: `deg^(-1/2)` at the source times `deg^(-1/2)` at the destination, the degree
    counted by a scatter-add of ones over the destinations and kept away from zero. -/
theorem ncol_eq : after hostOps0 W (Proc.devRef .tc main_v29)
    = Cert.ReferenceIdeal.Read.val_main_v37 (F := F) (W (Proc.devRef .tc main_arg1)) := by
  after_results_simp
  -- the operands of the two concatenations are read through the few operations before them
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rfl

-- the first stretch writes no argument
theorem keep0_arg0 : after hostOps0 W (Proc.devRef .tc main_arg0) = W (Proc.devRef .tc main_arg0) := by
  after_results_simp
theorem keep0_arg2 : after hostOps0 W (Proc.devRef .tc main_arg2) = W (Proc.devRef .tc main_arg2) := by
  after_results_simp
theorem keep0_arg3 : after hostOps0 W (Proc.devRef .tc main_arg3) = W (Proc.devRef .tc main_arg3) := by
  after_results_simp
theorem keep0_arg4 : after hostOps0 W (Proc.devRef .tc main_arg4) = W (Proc.devRef .tc main_arg4) := by
  after_results_simp
theorem keep0_arg5 : after hostOps0 W (Proc.devRef .tc main_arg5) = W (Proc.devRef .tc main_arg5) := by
  after_results_simp
theorem keep0_arg6 : after hostOps0 W (Proc.devRef .tc main_arg6) = W (Proc.devRef .tc main_arg6) := by
  after_results_simp
theorem keep0_arg7 : after hostOps0 W (Proc.devRef .tc main_arg7) = W (Proc.devRef .tc main_arg7) := by
  after_results_simp

/-! ## Between the first two regions: one propagation step on 64 columns -/

set_option maxHeartbeats 2000000 in
/-- The stretch after the first region leaves, in the second region's input, the propagation step of what the first
    region wrote, over the edge lists and weights the first stretch made. -/
theorem h1_eq : after hostOps1_1 (after hostOps1 W) (Proc.devRef .tc main_v46)
    = Cert.Spec.layer64 (F := F) (W (Proc.devRef .tc main_v30)) (W (Proc.devRef .tc main_v3)) (W (Proc.devRef .tc main_v6))
        (W (Proc.devRef .tc main_v29)) (W (Proc.devRef .tc main_arg3)) := by
  after_results_simp
  simp only [TRef.toBuf, TRef.ofBuf, cast_eq]
  rfl

-- it writes neither the edge lists, nor the weights, nor an argument
theorem keep1_v3 : after hostOps1_1 (after hostOps1 W) (Proc.devRef .tc main_v3) = W (Proc.devRef .tc main_v3) := by
  after_results_simp
theorem keep1_v6 : after hostOps1_1 (after hostOps1 W) (Proc.devRef .tc main_v6) = W (Proc.devRef .tc main_v6) := by
  after_results_simp
theorem keep1_v29 : after hostOps1_1 (after hostOps1 W) (Proc.devRef .tc main_v29) = W (Proc.devRef .tc main_v29) := by
  after_results_simp
theorem keep1_arg4 : after hostOps1_1 (after hostOps1 W) (Proc.devRef .tc main_arg4) = W (Proc.devRef .tc main_arg4) := by
  after_results_simp
theorem keep1_arg5 : after hostOps1_1 (after hostOps1 W) (Proc.devRef .tc main_arg5) = W (Proc.devRef .tc main_arg5) := by
  after_results_simp
theorem keep1_arg6 : after hostOps1_1 (after hostOps1 W) (Proc.devRef .tc main_arg6) = W (Proc.devRef .tc main_arg6) := by
  after_results_simp
theorem keep1_arg7 : after hostOps1_1 (after hostOps1 W) (Proc.devRef .tc main_arg7) = W (Proc.devRef .tc main_arg7) := by
  after_results_simp

/-! ## Between the last two regions: one propagation step on 32 columns, and the gate's bias as a 1×1 array -/

set_option maxHeartbeats 2000000 in
/-- The stretch after the second region leaves, in the third region's first input, the propagation step of what the
    second region wrote, over the same edge lists and weights. -/
theorem h2_eq : after hostOps2_2 (after hostOps2_1 (after hostOps2 W)) (Proc.devRef .tc main_v63)
    = Cert.Spec.layer32 (F := F) (W (Proc.devRef .tc main_v47)) (W (Proc.devRef .tc main_v3)) (W (Proc.devRef .tc main_v6))
        (W (Proc.devRef .tc main_v29)) (W (Proc.devRef .tc main_arg5)) := by
  after_results_simp
  simp only [TRef.toBuf, TRef.ofBuf, cast_eq]
  rfl

/-- The gate's bias, its one entry laid out as a 1×1 array. -/
theorem b11_eq : after hostOps2_2 (after hostOps2_1 (after hostOps2 W)) (Proc.devRef .tc main_v64)
    = shapeCast S1x1 (W (Proc.devRef .tc main_arg7)) Facts₀.shapeCasts_S1_S1x1 := by
  after_results
  rfl

theorem keep2_arg6 : after hostOps2_2 (after hostOps2_1 (after hostOps2 W)) (Proc.devRef .tc main_arg6) = W (Proc.devRef .tc main_arg6) := by
  after_results_simp

end Cert.KernelIdeal.Host

end
-- ==== Proof.Spec.lean ====
/-
  The reference's last stretch — the attention gate — as ONE function of its three operands:
  `gate h w b = h · σ(h·w + b)`, the row's score `∑ₖ h[i,k]·w[k,0] + b[0,0]` passed through the logistic
  function in jax's spelling `1 / (1 + exp (−z))` and multiplied back onto every column of the row.
  It is written with the reference program's own operations, so that the reference's last stage IS `gate`
  of the stages before it by unfolding, and the kernel's third region is proved equal to it index by index.
-/
import proofs.«156644_j17540646437727_1_alg».proof.ReferenceIdeal
import proofs.«156644_j17540646437727_1_alg».proof.Proof.Gen.ReferenceIdeal

noncomputable section

namespace Cert.Spec

open Idealize.ShloMosaic Cert.ReferenceIdeal Cert.ReferenceIdeal.Gen

variable {F : FTy → Type} [FloatOps F]

/-- The gate: `h · (1 / (1 + exp (−(h·w + b))))`, the bracket one number per row, spread over the row's 32 columns. -/
def gate (h : (⟨S50000x32, .f32⟩ : BufTy).Contents (Elt F)) (w : (⟨S32x1, .f32⟩ : BufTy).Contents (Elt F))
    (b : (⟨S1x1, .f32⟩ : BufTy).Contents (Elt F)) : (⟨S50000x32, .f32⟩ : BufTy).Contents (Elt F) :=
  mulf h (broadcastInDim S50000x32 ![0, 1] Facts₀.bcast_S50000x1_S50000x32_0_1
    (Host.divf (broadcastInDim S50000x1 ![] Facts₀.bcast_S_S50000x1 (constant S_ .f32 0x3F800000#32))
      (addf (broadcastInDim S50000x1 ![] Facts₀.bcast_S_S50000x1 (constant S_ .f32 0x3F800000#32))
        (Host.exp (Host.negf (addf (Host.dotGeneral dot_S50000x32_S32x1_S50000x1_1_0_0_1_n_n none h w)
          (broadcastInDim S50000x1 ![0, 1] Facts₀.bcast_S1x1_S50000x1_0_1 b)))))))

end Cert.Spec

end
-- ==== Proof.RefValue.lean ====
/-
  The reference's stages regrouped: its last stage is the gate of the second layer's output, each layer's output is
  the propagation step of that layer's matrix product, and the edge lists and weights are the first stages — the
  same functions the kernel program's host stretches are read as. Nothing is computed here: each identity is the
  stage definitions unfolded.
-/
import proofs.«156644_j17540646437727_1_alg».proof.Proof.Gen.ReferenceIdeal.Run
import proofs.«156644_j17540646437727_1_alg».proof.Proof.Gen.ReferenceIdeal.Read
import proofs.«156644_j17540646437727_1_alg».proof.Proof.Propagate
import proofs.«156644_j17540646437727_1_alg».proof.Proof.Spec

noncomputable section

namespace Cert.ReferenceIdeal.RefValue

open Idealize.ShloMosaic Cert.ReferenceIdeal Cert.ReferenceIdeal.Gen Cert.ReferenceIdeal.Read

variable {F : FTy → Type} [FloatOps F]

/-- The first layer's output is the propagation step of `x · W1`. -/
theorem layer1_eq (x0 : (⟨S50000x128, .f32⟩ : BufTy).Contents (Elt F)) (x1 : (⟨S2x800000, .i32⟩ : BufTy).Contents (Elt F)) (x2 : (⟨S128x64, .f32⟩ : BufTy).Contents (Elt F)) (x3 : (⟨S64, .f32⟩ : BufTy).Contents (Elt F)) :
    val_main_v46 (F := F) x0 x1 x2 x3
      = Cert.Spec.layer64 (val_main_v29 (F := F) x0 x2) (val_main_v3 (F := F) x1) (val_main_v6 (F := F) x1) (val_main_v37 (F := F) x1) x3 := rfl

/-- The second layer's output is the propagation step of `h1 · W2`. -/
theorem layer2_eq (x0 : (⟨S50000x128, .f32⟩ : BufTy).Contents (Elt F)) (x1 : (⟨S2x800000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F)) (x5 : (⟨S32, .f32⟩ : BufTy).Contents (Elt F)) :
    val_main_v64 (F := F) x0 x1 x2 x3 x4 x5
      = Cert.Spec.layer32 (val_main_v47 (F := F) x0 x1 x2 x3 x4) (val_main_v3 (F := F) x1) (val_main_v6 (F := F) x1) (val_main_v37 (F := F) x1) x5 := rfl

/-- The result is the gate of the second layer's output. -/
theorem result_eq (x0 : (⟨S50000x128, .f32⟩ : BufTy).Contents (Elt F)) (x1 : (⟨S2x800000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F)) (x5 : (⟨S32, .f32⟩ : BufTy).Contents (Elt F)) (x6 : (⟨S32x1, .f32⟩ : BufTy).Contents (Elt F)) (x7 : (⟨S1, .f32⟩ : BufTy).Contents (Elt F)) :
    val_main_v76 (F := F) x0 x1 x2 x3 x4 x5 x6 x7
      = Cert.Spec.gate (val_main_v64 (F := F) x0 x1 x2 x3 x4 x5) x6 (val_main_v66 (F := F) x7) := rfl

end Cert.ReferenceIdeal.RefValue

end
-- ==== Proof.Region0.lean ====
/-
  The first region: ten row blocks of 5000 rows, each the product of its block of x with the whole of W1.
  The blocks tile the 50000 rows, so the array the region leaves is the one matrix product x·W1:
  entry (i, j) is ∑ₖ x[i,k]·W1[k,j], which is what the host's dot_general computes at the ideal values.
-/
import proofs.«156644_j17540646437727_1_alg».proof.Proof.Gen.KernelIdeal.Frame
import proofs.«156644_j17540646437727_1_alg».proof.ReferenceIdeal
import proofs.«156644_j17540646437727_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Reg0

open Cert.KernelIdeal Cert.KernelIdeal.Gen

variable (V : (c : Dev nD) → (b : Ref sig .tc) → Buf (Elt Ideal) ((c : Thread nD τ).loc b))

open Idealize.ShloMosaic.ValueIdx

/-! ## The two matrix products at an index -/

/-- The product x·W1 as one array of the two input arrays: the host's dot_general at the ideal values. -/
abbrev prodArr (x : Vec Ideal S50000x128 .f32) (w : Vec Ideal S128x64 .f32) : Vec Ideal S50000x64 .f32 :=
  Host.dotGeneral (F := Ideal) (φ₁ := .f32) (φ₂ := .f32) Cert.ReferenceIdeal.dot_S50000x128_S128x64_S50000x64_1_0_0_1_n_n none x w

/-- The zero offsets, however they are spelt. -/
theorem off_zero : (![0, 0] : Fin 2 → Nat) = fun _ => 0 := funext fun a => by fin_cases a <;> rfl

/-! ### The block product: the operand indices of the dot, axis by axis -/

theorem blk_lhs_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem blk_lhs_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem blk_rhs_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem blk_rhs_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of the block product: the row p of the block of x against the column q of W1. The narrowing casts
    are the identity at the ideal values and the accumulator is zero. -/
theorem payload_at (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact blk_lhs_0 _ _
    | ⟨1, _⟩ => exact (blk_lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (blk_rhs_0 _ _).trans hk
    | ⟨1, _⟩ => exact blk_rhs_1 _ _)
  rw [el, er]
  rfl

/-! ### The whole product: the same for the host's dot_general -/

theorem arr_lhs_0 (i : S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin S50000x128.rank) ∈ Cert.ReferenceIdeal.dot_S50000x128_S128x64_S50000x64_1_0_0_1_n_n.lhsBatch by decide), dif_pos (show (0 : Fin S50000x128.rank) ∈ Cert.ReferenceIdeal.dot_S50000x128_S128x64_S50000x64_1_0_0_1_n_n.lhsNonContracting by decide)]
  rfl
theorem arr_lhs_1 (i : S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
theorem arr_rhs_0 (i : S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
theorem arr_rhs_1 (i : S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin S128x64.rank) ∈ Cert.ReferenceIdeal.dot_S50000x128_S128x64_S50000x64_1_0_0_1_n_n.rhsBatch by decide), dif_pos (show (1 : Fin S128x64.rank) ∈ Cert.ReferenceIdeal.dot_S50000x128_S128x64_S50000x64_1_0_0_1_n_n.rhsNonContracting by decide)]
  rfl

/-- Entry (i, q) of the whole product: the row i of x against the column q of W1. -/
theorem prodArr_at (x : Vec Ideal S50000x128 .f32) (w : Vec Ideal S128x64 .f32) (i : Fin 50000) (q : Fin 64) :
    prodArr x w (ix2 i q) = ∑ k : Fin 128, x (ix2 i k) * w (ix2 k q) := by
  simp only [prodArr, Host.dotGeneral]
  rw [Ideal.dotGeneral_apply, ← Equiv.sum_comp (contrEquiv1 Cert.ReferenceIdeal.dot_S50000x128_S128x64_S50000x64_1_0_0_1_n_n 128 rfl rfl).symm]
  refine Finset.sum_congr rfl fun k _ => ?_
  have hk := contrEquiv1_symm_val Cert.ReferenceIdeal.dot_S50000x128_S128x64_S50000x64_1_0_0_1_n_n 128 rfl rfl k
  have el : Cert.ReferenceIdeal.dot_S50000x128_S128x64_S50000x64_1_0_0_1_n_n.lhsIdx (ix2 i q) ((contrEquiv1 Cert.ReferenceIdeal.dot_S50000x128_S128x64_S50000x64_1_0_0_1_n_n 128 rfl rfl).symm k) = ix2 i k := funext fun a => Fin.ext (by
    match a with
    | ⟨0, _⟩ => exact arr_lhs_0 _ _
    | ⟨1, _⟩ => exact (arr_lhs_1 _ _).trans hk)
  have er : Cert.ReferenceIdeal.dot_S50000x128_S128x64_S50000x64_1_0_0_1_n_n.rhsIdx (ix2 i q) ((contrEquiv1 Cert.ReferenceIdeal.dot_S50000x128_S128x64_S50000x64_1_0_0_1_n_n 128 rfl rfl).symm k) = ix2 k q := funext fun a => Fin.ext (by
    match a with
    | ⟨0, _⟩ => exact (arr_rhs_0 _ _).trans hk
    | ⟨1, _⟩ => exact arr_rhs_1 _ _)
  rw [el, er]

/-- A block of the whole product is the block product: if the row p of x0 is the row i of x and the column q of x1 is
    the column q of W1, the block product at (p, q) is the whole product at (i, q). -/
theorem block_at (x : Vec Ideal S50000x128 .f32) (w : Vec Ideal S128x64 .f32)
    (x0 : Vec Ideal S5000x128 .f32) (x1 : Vec Ideal S128x64 .f32) (i : Fin 50000) (p : Fin 5000) (q : Fin 64)
    (h0 : ∀ k : Fin 128, x0 (ix2 p k) = x (ix2 i k)) (h1 : ∀ k : Fin 128, x1 (ix2 k q) = w (ix2 k q)) :
    k0_pay1 (F := Ideal) x0 x1 (ix2 p q) = prodArr x w (ix2 i q) := by
  rw [payload_at, prodArr_at]
  exact Finset.sum_congr rfl fun k _ => by rw [h0 k, h1 k]

/-! ## From the blocks to the array -/

/-- The printed index maps over the ten grid points: the block of x and the output block move with the point along
    the rows, W1's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the whole product of the two input arrays as the region finds them. -/
theorem flushed_eq (c : Dev nD) (t : Fin cfg0.N) :
    (dat0 (F := Ideal) V c).flushed 2 t
      = ((cfg0.win 2).blk t).view.read (Elt Ideal) (prodArr (V c main_arg0) (V c main_arg2)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x64) off_zero]
  refine funext fun (j : S5000x64.Idx) => ?_
  obtain ⟨p, q, rfl⟩ : ∃ (p : Fin 5000) (q : Fin 64), j = ix2 p q := ⟨j 0, j 1, eq_ix2 j⟩
  have hN : grid0.N = 10 := N_0
  have ht : t.val < 10 := by have h : t.val < grid0.N := t.isLt; omega
  have hp : p.val < 5000 := p.isLt
  obtain ⟨e00, e01, e10, e11, e20, e21⟩ := idx_facts t
  show k0_pay1 (F := Ideal) (iblk0 V c 0 t) (iblk0 V c 1 t) (ix2 p q)
    = prodArr (V c main_arg0) (V c main_arg2) (((cfg0.win 2).blk t).view.emb (ix2 p q))
  have hemb : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; rw [e20]; omega
    | ⟨1, _⟩ => show win0_2.index t (1 : Fin 2) * 64 + 1 * q.val = q.val; rw [e21]; omega
  rw [hemb]
  refine block_at (V c main_arg0) (V c main_arg2) (iblk0 V c 0 t) (iblk0 V c 1 t) _ p q (fun k => ?_) (fun k => ?_)
  · show V c main_arg0 (((cfg0.win 0).blk t).view.emb (ix2 p k)) = V c main_arg0 (ix2 _ k)
    refine congrArg (V c main_arg0) ?_
    funext a; apply Fin.ext
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 128 + 1 * k.val = k.val; rw [e10]; omega
    | ⟨1, _⟩ => show win0_1.index t (1 : Fin 2) * 64 + 1 * q.val = q.val; rw [e11]; omega

/-- An index of the array is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every index of the array is in some point's block: row r is in the block of the point r / 5000. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 10 := N_0
  refine ⟨⟨(i 0).val / 5000, by show (i 0).val / 5000 < grid0.N; omega⟩, flush0_2 _, ?_⟩
  rw [mem_blk]
  obtain ⟨-, -, -, -, e0, e1⟩ := idx_facts ⟨(i 0).val / 5000, by show (i 0).val / 5000 < grid0.N; omega⟩
  intro a
  match a with
  | ⟨0, _⟩ =>
    show win0_2.index ⟨(i 0).val / 5000, _⟩ (0 : Fin 2) * 5000 ≤ (i 0).val ∧ (i 0).val < win0_2.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_2.index ⟨(i 0).val / 5000, _⟩ (1 : Fin 2) * 64 ≤ (i 1).val ∧ (i 1).val < win0_2.index ⟨(i 0).val / 5000, _⟩ (1 : Fin 2) * 64 + 64
    rw [e1]; omega

/-- What region 0 leaves in its output array, whatever the buffers hold when it is entered: the matrix product of the
    two input arrays. -/
theorem value (c : Dev nD) :
    (dat0 (F := Ideal) V c).arrAt 2 cfg0.N
      = Host.dotGeneral (F := Ideal) (φ₁ := .f32) (φ₂ := .f32) Cert.ReferenceIdeal.dot_S50000x128_S128x64_S50000x64_1_0_0_1_n_n none
          (V c main_arg0) (V c main_arg2) :=
  (dat0 (F := Ideal) V c).arrAt_eq_of_cover 2 (prodArr (V c main_arg0) (V c main_arg2)) (fun t _ => flushed_eq V c t) cover

end Cert.KernelIdeal.Reg0

end
-- ==== Proof.Region1.lean ====
/-
  The second region: ten row blocks of 5000 rows, each the product of its block of h1 with the whole of W2.
  The blocks tile the 50000 rows, so the array the region leaves is the one matrix product h1·W2.
-/
import proofs.«156644_j17540646437727_1_alg».proof.Proof.Gen.KernelIdeal.Frame
import proofs.«156644_j17540646437727_1_alg».proof.ReferenceIdeal
import proofs.«156644_j17540646437727_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Reg1

open Cert.KernelIdeal Cert.KernelIdeal.Gen

variable (V : (c : Dev nD) → (b : Ref sig .tc) → Buf (Elt Ideal) ((c : Thread nD τ).loc b))

open Idealize.ShloMosaic.ValueIdx

/-! ## The two matrix products at an index -/

/-- The product h1·W2 as one array of the two input arrays: the host's dot_general at the ideal values. -/
abbrev prodArr (x : Vec Ideal S50000x64 .f32) (w : Vec Ideal S64x32 .f32) : Vec Ideal S50000x32 .f32 :=
  Host.dotGeneral (F := Ideal) (φ₁ := .f32) (φ₂ := .f32) Cert.ReferenceIdeal.dot_S50000x64_S64x32_S50000x32_1_0_0_1_n_n none x w

/-- The zero offsets, however they are spelt. -/
theorem off_zero : (![0, 0] : Fin 2 → Nat) = fun _ => 0 := funext fun a => by fin_cases a <;> rfl

/-! ### The block product: the operand indices of the dot, axis by axis -/

theorem blk_lhs_0 (j : S5000x32.Idx) (q : dot_S5000x64_S64x32_S5000x32_1_0_0_1_n_n.contr.Idx) :
    (dot_S5000x64_S64x32_S5000x32_1_0_0_1_n_n.lhsIdx j q 0).val = (j 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem blk_lhs_1 (j : S5000x32.Idx) (q : dot_S5000x64_S64x32_S5000x32_1_0_0_1_n_n.contr.Idx) :
    (dot_S5000x64_S64x32_S5000x32_1_0_0_1_n_n.lhsIdx j q 1).val = (q ⟨0, by decide⟩).val :=
  dot_S5000x64_S64x32_S5000x32_1_0_0_1_n_n.lhsIdx_val_of_single rfl j q
theorem blk_rhs_0 (j : S5000x32.Idx) (q : dot_S5000x64_S64x32_S5000x32_1_0_0_1_n_n.contr.Idx) :
    (dot_S5000x64_S64x32_S5000x32_1_0_0_1_n_n.rhsIdx j q 0).val = (q ⟨0, by decide⟩).val :=
  dot_S5000x64_S64x32_S5000x32_1_0_0_1_n_n.rhsIdx_val_of_single rfl j q
theorem blk_rhs_1 (j : S5000x32.Idx) (q : dot_S5000x64_S64x32_S5000x32_1_0_0_1_n_n.contr.Idx) :
    (dot_S5000x64_S64x32_S5000x32_1_0_0_1_n_n.rhsIdx j q 1).val = (j 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- Entry (p, q) of the block product: the row p of the block of h1 against the column q of W2. The narrowing casts
    are the identity at the ideal values, the cast of a shape to itself is the identity, and the accumulator is zero. -/
theorem payload_at (x0 : Vec Ideal S5000x64 .f32) (x1 : Vec Ideal S64x32 .f32) (p : Fin 5000) (q : Fin 32) :
    k1_pay1 (F := Ideal) x0 x1 (ix2 p q) = ∑ k : Fin 64, x0 (ix2 p k) * x1 (ix2 k q) := by
  unfold k1_pay1
  refine (Ideal.matmul_constant_zero_apply dot_S5000x64_S64x32_S5000x32_1_0_0_1_n_n none _ _ (ix2 p q)).trans ?_
  rw [← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact blk_lhs_0 _ _
    | ⟨1, _⟩ => exact (blk_lhs_1 _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (blk_rhs_0 _ _).trans hk
    | ⟨1, _⟩ => exact blk_rhs_1 _ _)
  rw [el, er, shapeCast_self]
  rfl

/-! ### The whole product: the same for the host's dot_general -/

theorem arr_lhs_0 (i : S50000x32.Idx) (q : Cert.ReferenceIdeal.dot_S50000x64_S64x32_S50000x32_1_0_0_1_n_n.contr.Idx) :
    (Cert.ReferenceIdeal.dot_S50000x64_S64x32_S50000x32_1_0_0_1_n_n.lhsIdx i q 0).val = (i 0).val := by
  unfold DotDims.lhsIdx
  rw [dif_neg (show ¬(0 : Fin S50000x64.rank) ∈ Cert.ReferenceIdeal.dot_S50000x64_S64x32_S50000x32_1_0_0_1_n_n.lhsBatch by decide), dif_pos (show (0 : Fin S50000x64.rank) ∈ Cert.ReferenceIdeal.dot_S50000x64_S64x32_S50000x32_1_0_0_1_n_n.lhsNonContracting by decide)]
  rfl
theorem arr_lhs_1 (i : S50000x32.Idx) (q : Cert.ReferenceIdeal.dot_S50000x64_S64x32_S50000x32_1_0_0_1_n_n.contr.Idx) :
    (Cert.ReferenceIdeal.dot_S50000x64_S64x32_S50000x32_1_0_0_1_n_n.lhsIdx i q 1).val = (q ⟨0, by decide⟩).val :=
  Cert.ReferenceIdeal.dot_S50000x64_S64x32_S50000x32_1_0_0_1_n_n.lhsIdx_val_of_single rfl i q
theorem arr_rhs_0 (i : S50000x32.Idx) (q : Cert.ReferenceIdeal.dot_S50000x64_S64x32_S50000x32_1_0_0_1_n_n.contr.Idx) :
    (Cert.ReferenceIdeal.dot_S50000x64_S64x32_S50000x32_1_0_0_1_n_n.rhsIdx i q 0).val = (q ⟨0, by decide⟩).val :=
  Cert.ReferenceIdeal.dot_S50000x64_S64x32_S50000x32_1_0_0_1_n_n.rhsIdx_val_of_single rfl i q
theorem arr_rhs_1 (i : S50000x32.Idx) (q : Cert.ReferenceIdeal.dot_S50000x64_S64x32_S50000x32_1_0_0_1_n_n.contr.Idx) :
    (Cert.ReferenceIdeal.dot_S50000x64_S64x32_S50000x32_1_0_0_1_n_n.rhsIdx i q 1).val = (i 1).val := by
  unfold DotDims.rhsIdx
  rw [dif_neg (show ¬(1 : Fin S64x32.rank) ∈ Cert.ReferenceIdeal.dot_S50000x64_S64x32_S50000x32_1_0_0_1_n_n.rhsBatch by decide), dif_pos (show (1 : Fin S64x32.rank) ∈ Cert.ReferenceIdeal.dot_S50000x64_S64x32_S50000x32_1_0_0_1_n_n.rhsNonContracting by decide)]
  rfl

/-- Entry (i, q) of the whole product: the row i of h1 against the column q of W2. -/
theorem prodArr_at (x : Vec Ideal S50000x64 .f32) (w : Vec Ideal S64x32 .f32) (i : Fin 50000) (q : Fin 32) :
    prodArr x w (ix2 i q) = ∑ k : Fin 64, x (ix2 i k) * w (ix2 k q) := by
  simp only [prodArr, Host.dotGeneral]
  rw [Ideal.dotGeneral_apply, ← Equiv.sum_comp (contrEquiv1 Cert.ReferenceIdeal.dot_S50000x64_S64x32_S50000x32_1_0_0_1_n_n 64 rfl rfl).symm]
  refine Finset.sum_congr rfl fun k _ => ?_
  have hk := contrEquiv1_symm_val Cert.ReferenceIdeal.dot_S50000x64_S64x32_S50000x32_1_0_0_1_n_n 64 rfl rfl k
  have el : Cert.ReferenceIdeal.dot_S50000x64_S64x32_S50000x32_1_0_0_1_n_n.lhsIdx (ix2 i q) ((contrEquiv1 Cert.ReferenceIdeal.dot_S50000x64_S64x32_S50000x32_1_0_0_1_n_n 64 rfl rfl).symm k) = ix2 i k := funext fun a => Fin.ext (by
    match a with
    | ⟨0, _⟩ => exact arr_lhs_0 _ _
    | ⟨1, _⟩ => exact (arr_lhs_1 _ _).trans hk)
  have er : Cert.ReferenceIdeal.dot_S50000x64_S64x32_S50000x32_1_0_0_1_n_n.rhsIdx (ix2 i q) ((contrEquiv1 Cert.ReferenceIdeal.dot_S50000x64_S64x32_S50000x32_1_0_0_1_n_n 64 rfl rfl).symm k) = ix2 k q := funext fun a => Fin.ext (by
    match a with
    | ⟨0, _⟩ => exact (arr_rhs_0 _ _).trans hk
    | ⟨1, _⟩ => exact arr_rhs_1 _ _)
  rw [el, er]

/-- A block of the whole product is the block product: if the row p of x0 is the row i of h1 and the column q of x1 is
    the column q of W2, the block product at (p, q) is the whole product at (i, q). -/
theorem block_at (x : Vec Ideal S50000x64 .f32) (w : Vec Ideal S64x32 .f32)
    (x0 : Vec Ideal S5000x64 .f32) (x1 : Vec Ideal S64x32 .f32) (i : Fin 50000) (p : Fin 5000) (q : Fin 32)
    (h0 : ∀ k : Fin 64, x0 (ix2 p k) = x (ix2 i k)) (h1 : ∀ k : Fin 64, x1 (ix2 k q) = w (ix2 k q)) :
    k1_pay1 (F := Ideal) x0 x1 (ix2 p q) = prodArr x w (ix2 i q) := by
  rw [payload_at, prodArr_at]
  exact Finset.sum_congr rfl fun k _ => by rw [h0 k, h1 k]

/-! ## From the blocks to the array -/

/-- The printed index maps over the ten grid points: the block of h1 and the output block move with the point along
    the rows, W2's block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is block t of the whole product of the two input arrays as the region finds them. -/
theorem flushed_eq (c : Dev nD) (t : Fin cfg1.N) :
    (dat1 (F := Ideal) V c).flushed 2 t
      = ((cfg1.win 2).blk t).view.read (Elt Ideal) (prodArr (V c main_v46) (V c main_arg4)) := by
  show (cfg1.win 2).cut (grid1.coords t) ((dat1 V c).after 2 t) = _
  rw [after1_2]
  unfold out1_2
  rw [View.canon_unit_zero off_zero]
  simp only [View.ld_unit_zero (S := S5000x64) off_zero, View.ld_unit_zero (S := S64x32) off_zero]
  refine funext fun (j : S5000x32.Idx) => ?_
  obtain ⟨p, q, rfl⟩ : ∃ (p : Fin 5000) (q : Fin 32), j = ix2 p q := ⟨j 0, j 1, eq_ix2 j⟩
  have hN : grid1.N = 10 := N_1
  have ht : t.val < 10 := by have h : t.val < grid1.N := t.isLt; omega
  have hp : p.val < 5000 := p.isLt
  obtain ⟨e00, e01, e10, e11, e20, e21⟩ := idx_facts t
  show k1_pay1 (F := Ideal) (iblk1 V c 0 t) (iblk1 V c 1 t) (ix2 p q)
    = prodArr (V c main_v46) (V c main_arg4) (((cfg1.win 2).blk t).view.emb (ix2 p q))
  have hemb : ((cfg1.win 2).blk t).view.emb (ix2 p q) = ix2 (⟨t.val * 5000 + p.val, by omega⟩ : Fin 50000) q := by
    funext a; apply Fin.ext
    match a with
    | ⟨0, _⟩ => show win1_2.index t (0 : Fin 2) * 5000 + 1 * p.val = t.val * 5000 + p.val; rw [e20]; omega
    | ⟨1, _⟩ => show win1_2.index t (1 : Fin 2) * 32 + 1 * q.val = q.val; rw [e21]; omega
  rw [hemb]
  refine block_at (V c main_v46) (V c main_arg4) (iblk1 V c 0 t) (iblk1 V c 1 t) _ p q (fun k => ?_) (fun k => ?_)
  · show V c main_v46 (((cfg1.win 0).blk t).view.emb (ix2 p k)) = V c main_v46 (ix2 _ k)
    refine congrArg (V c main_v46) ?_
    funext a; apply Fin.ext
    match a with
    | ⟨0, _⟩ => show win1_0.index t (0 : Fin 2) * 5000 + 1 * p.val = t.val * 5000 + p.val; rw [e00]; omega
    | ⟨1, _⟩ => show win1_0.index t (1 : Fin 2) * 64 + 1 * k.val = k.val; rw [e01]; omega
  · show V c main_arg4 (((cfg1.win 1).blk t).view.emb (ix2 k q)) = V c main_arg4 (ix2 k q)
    refine congrArg (V c main_arg4) ?_
    funext a; apply Fin.ext
    match a with
    | ⟨0, _⟩ => show win1_1.index t (0 : Fin 2) * 64 + 1 * k.val = k.val; rw [e10]; omega
    | ⟨1, _⟩ => show win1_1.index t (1 : Fin 2) * 32 + 1 * q.val = q.val; rw [e11]; omega

/-- An index of the array is in point t's block iff each coordinate is in the block's range on its axis. -/
theorem mem_blk (t : Fin cfg1.N) (i : S50000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v47).slice (win1_2.rect t)).set ↔ _
  rw [View.set_slice_whole, Rect.mem_set_unit]
  exact Iff.rfl

/-- Every index of the array is in some point's block: row r is in the block of the point r / 5000. -/
theorem cover (i : S50000x32.Idx) :
    ∃ t : Fin cfg1.N, (cfg1.win 2).flush t = true ∧ i ∈ ((cfg1.win 2).blk t).view.set := by
  have hi0 : (i 0).val < 50000 := (i 0).isLt
  have hi1 : (i 1).val < 32 := (i 1).isLt
  have hN : grid1.N = 10 := N_1
  refine ⟨⟨(i 0).val / 5000, by show (i 0).val / 5000 < grid1.N; omega⟩, flush1_2 _, ?_⟩
  rw [mem_blk]
  obtain ⟨-, -, -, -, e0, e1⟩ := idx_facts ⟨(i 0).val / 5000, by show (i 0).val / 5000 < grid1.N; omega⟩
  intro a
  match a with
  | ⟨0, _⟩ =>
    show win1_2.index ⟨(i 0).val / 5000, _⟩ (0 : Fin 2) * 5000 ≤ (i 0).val ∧ (i 0).val < win1_2.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_2.index ⟨(i 0).val / 5000, _⟩ (1 : Fin 2) * 32 ≤ (i 1).val ∧ (i 1).val < win1_2.index ⟨(i 0).val / 5000, _⟩ (1 : Fin 2) * 32 + 32
    rw [e1]; omega

/-- What region 1 leaves in its output array, whatever the buffers hold when it is entered: the matrix product of the
    two input arrays. -/
theorem value (c : Dev nD) :
    (dat1 (F := Ideal) V c).arrAt 2 cfg1.N
      = Host.dotGeneral (F := Ideal) (φ₁ := .f32) (φ₂ := .f32) Cert.ReferenceIdeal.dot_S50000x64_S64x32_S50000x32_1_0_0_1_n_n none
          (V c main_v46) (V c main_arg4) :=
  (dat1 (F := Ideal) V c).arrAt_eq_of_cover 2 (prodArr (V c main_v46) (V c main_arg4)) (fun t _ => flushed_eq V c t) cover

end Cert.KernelIdeal.Reg1

end
-- ==== Proof.Region2.lean ====
/-
  The third region: ten row blocks of 5000 rows; on each, the row's score h·w + b through the logistic function,
  multiplied back onto the row. The blocks tile the rows, so the array the region leaves is the gate of the whole arrays.
-/
import proofs.«156644_j17540646437727_1_alg».proof.Proof.Gen.KernelIdeal.Frame
import proofs.«156644_j17540646437727_1_alg».proof.ReferenceIdeal
import proofs.«156644_j17540646437727_1_alg».proof.Proof.Gen.ReferenceIdeal
import proofs.«156644_j17540646437727_1_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Reg2

open Cert.KernelIdeal Cert.KernelIdeal.Gen
open Idealize.ShloMosaic.ValueIdx (ix2 eq_ix2)

/-! ## The block's product h·w at an index -/

theorem blockDot_lhs_0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
theorem blockDot_lhs_1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
theorem blockDot_rhs_0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
theorem blockDot_rhs_1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

/-- The block's matrix product into the zero accumulator, at row `p`: the sum over the 32 columns of the row of `x`
    against the one column of `y`. -/
theorem blockDot_apply {φ₁ φ₂ : FTy} (x : FVec Ideal S5000x32 φ₁) (y : FVec Ideal S32x1 φ₂) (p : Fin 5000) (z : Fin 1) :
    matmul dot_S5000x32_S32x1_S5000x1_1_0_0_1_n_n none x y (constant S5000x1 .f32 0x00000000#32) (ix2 p z)
      = ∑ k : Fin 32, x (ix2 p k) * y (ix2 k z) := by
  simp only [matmul]
  rw [Ideal.matmul_constant_zero_apply, ← Equiv.sum_comp (ValueIdx.contrEquiv1 dot_S5000x32_S32x1_S5000x1_1_0_0_1_n_n 32 rfl rfl).symm]
  refine Finset.sum_congr rfl fun k _ => ?_
  have hk := ValueIdx.contrEquiv1_symm_val dot_S5000x32_S32x1_S5000x1_1_0_0_1_n_n 32 rfl rfl k
  have el : dot_S5000x32_S32x1_S5000x1_1_0_0_1_n_n.lhsIdx (ix2 p z) ((ValueIdx.contrEquiv1 dot_S5000x32_S32x1_S5000x1_1_0_0_1_n_n 32 rfl rfl).symm k) = ix2 p k := funext fun a => Fin.ext (by
    match a with
    | ⟨0, _⟩ => exact blockDot_lhs_0 _ _
    | ⟨1, _⟩ => exact (blockDot_lhs_1 _ _).trans hk)
  have er : dot_S5000x32_S32x1_S5000x1_1_0_0_1_n_n.rhsIdx (ix2 p z) ((ValueIdx.contrEquiv1 dot_S5000x32_S32x1_S5000x1_1_0_0_1_n_n 32 rfl rfl).symm k) = ix2 k z := funext fun a => Fin.ext (by
    match a with
    | ⟨0, _⟩ => exact (blockDot_rhs_0 _ _).trans hk
    | ⟨1, _⟩ => exact blockDot_rhs_1 _ _)
  rw [el, er]

/-! ## The whole arrays' product h·w at an index -/

theorem wholeDot_lhs_0 (i : Cert.ReferenceIdeal.S50000x1.Idx) (q : Cert.ReferenceIdeal.dot_S50000x32_S32x1_S50000x1_1_0_0_1_n_n.contr.Idx) :
    (Cert.ReferenceIdeal.dot_S50000x32_S32x1_S50000x1_1_0_0_1_n_n.lhsIdx i q 0).val = (i 0).val := by
  unfold DotDims.lhsIdx
  rw [dif_neg (show ¬(0 : Fin Cert.ReferenceIdeal.S50000x32.rank) ∈ Cert.ReferenceIdeal.dot_S50000x32_S32x1_S50000x1_1_0_0_1_n_n.lhsBatch by decide), dif_pos (show (0 : Fin Cert.ReferenceIdeal.S50000x32.rank) ∈ Cert.ReferenceIdeal.dot_S50000x32_S32x1_S50000x1_1_0_0_1_n_n.lhsNonContracting by decide)]
  rfl
theorem wholeDot_lhs_1 (i : Cert.ReferenceIdeal.S50000x1.Idx) (q : Cert.ReferenceIdeal.dot_S50000x32_S32x1_S50000x1_1_0_0_1_n_n.contr.Idx) :
    (Cert.ReferenceIdeal.dot_S50000x32_S32x1_S50000x1_1_0_0_1_n_n.lhsIdx i q 1).val = (q ⟨0, by decide⟩).val :=
  Cert.ReferenceIdeal.dot_S50000x32_S32x1_S50000x1_1_0_0_1_n_n.lhsIdx_val_of_single rfl i q
theorem wholeDot_rhs_0 (i : Cert.ReferenceIdeal.S50000x1.Idx) (q : Cert.ReferenceIdeal.dot_S50000x32_S32x1_S50000x1_1_0_0_1_n_n.contr.Idx) :
    (Cert.ReferenceIdeal.dot_S50000x32_S32x1_S50000x1_1_0_0_1_n_n.rhsIdx i q 0).val = (q ⟨0, by decide⟩).val :=
  Cert.ReferenceIdeal.dot_S50000x32_S32x1_S50000x1_1_0_0_1_n_n.rhsIdx_val_of_single rfl i q
theorem wholeDot_rhs_1 (i : Cert.ReferenceIdeal.S50000x1.Idx) (q : Cert.ReferenceIdeal.dot_S50000x32_S32x1_S50000x1_1_0_0_1_n_n.contr.Idx) :
    (Cert.ReferenceIdeal.dot_S50000x32_S32x1_S50000x1_1_0_0_1_n_n.rhsIdx i q 1).val = (i 1).val := by
  unfold DotDims.rhsIdx
  rw [dif_neg (show ¬(1 : Fin Cert.ReferenceIdeal.S32x1.rank) ∈ Cert.ReferenceIdeal.dot_S50000x32_S32x1_S50000x1_1_0_0_1_n_n.rhsBatch by decide), dif_pos (show (1 : Fin Cert.ReferenceIdeal.S32x1.rank) ∈ Cert.ReferenceIdeal.dot_S50000x32_S32x1_S50000x1_1_0_0_1_n_n.rhsNonContracting by decide)]
  rfl

/-- The host's product of the whole arrays at row `r`: the sum over the 32 columns of the row of `h` against the
    one column of `w`. -/
theorem wholeDot_apply (h : (⟨Cert.ReferenceIdeal.S50000x32, .f32⟩ : BufTy).Contents (Elt Ideal))
    (w : (⟨Cert.ReferenceIdeal.S32x1, .f32⟩ : BufTy).Contents (Elt Ideal)) (r : Fin 50000) (z : Fin 1) :
    Host.dotGeneral (F := Ideal) (φ₁ := .f32) (φ₂ := .f32) Cert.ReferenceIdeal.dot_S50000x32_S32x1_S50000x1_1_0_0_1_n_n none h w (ix2 r z)
      = ∑ k : Fin 32, h (ix2 r k) * w (ix2 k z) := by
  simp only [Host.dotGeneral]
  rw [Ideal.dotGeneral_apply, ← Equiv.sum_comp (ValueIdx.contrEquiv1 Cert.ReferenceIdeal.dot_S50000x32_S32x1_S50000x1_1_0_0_1_n_n 32 rfl rfl).symm]
  refine Finset.sum_congr rfl fun k _ => ?_
  have hk := ValueIdx.contrEquiv1_symm_val Cert.ReferenceIdeal.dot_S50000x32_S32x1_S50000x1_1_0_0_1_n_n 32 rfl rfl k
  have el : Cert.ReferenceIdeal.dot_S50000x32_S32x1_S50000x1_1_0_0_1_n_n.lhsIdx (ix2 r z) ((ValueIdx.contrEquiv1 Cert.ReferenceIdeal.dot_S50000x32_S32x1_S50000x1_1_0_0_1_n_n 32 rfl rfl).symm k) = ix2 r k := funext fun a => Fin.ext (by
    match a with
    | ⟨0, _⟩ => exact wholeDot_lhs_0 _ _
    | ⟨1, _⟩ => exact (wholeDot_lhs_1 _ _).trans hk)
  have er : Cert.ReferenceIdeal.dot_S50000x32_S32x1_S50000x1_1_0_0_1_n_n.rhsIdx (ix2 r z) ((ValueIdx.contrEquiv1 Cert.ReferenceIdeal.dot_S50000x32_S32x1_S50000x1_1_0_0_1_n_n 32 rfl rfl).symm k) = ix2 k z := funext fun a => Fin.ext (by
    match a with
    | ⟨0, _⟩ => exact (wholeDot_rhs_0 _ _).trans hk
    | ⟨1, _⟩ => exact wholeDot_rhs_1 _ _)
  rw [el, er]

/-! ## The gate at an index -/

theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl
theorem logistic_apply {s : Shape} {φ : FTy} (a : FVec Ideal s φ) (i : s.Idx) : logistic a i = Ideal.logistic (a i) := rfl

/-- The scalar one spread over a column reads one everywhere. -/
theorem oneCol_at (j : Cert.ReferenceIdeal.S50000x1.Idx) :
    broadcastInDim Cert.ReferenceIdeal.S50000x1 ![] Cert.ReferenceIdeal.Facts₀.bcast_S_S50000x1 (constant (F := Ideal) Cert.ReferenceIdeal.S_ .f32 0x3F800000#32) j = 1 :=
  (ValueIdx.broadcastInDim_scalar_apply _ _ j).trans Ideal.ofBits_one_f32

/-- The one-by-one bias spread over a column reads its one entry everywhere. -/
theorem biasCol_at (b : (⟨Cert.ReferenceIdeal.S1x1, .f32⟩ : BufTy).Contents (Elt Ideal)) (r : Fin 50000) (z : Fin 1) :
    broadcastInDim Cert.ReferenceIdeal.S50000x1 ![0, 1] Cert.ReferenceIdeal.Facts₀.bcast_S1x1_S50000x1_0_1 b (ix2 r z) = b (ix2 (0 : Fin 1) (0 : Fin 1)) :=
  broadcastInDim_apply _ _ b (ix2 r z) (ix2 (0 : Fin 1) (0 : Fin 1)) (fun a => match a with
    | ⟨0, _⟩ => by show (0 : Nat) = if (1 : Nat) = 1 then 0 else _; rw [if_pos rfl]
    | ⟨1, _⟩ => by show (0 : Nat) = if (1 : Nat) = 1 then 0 else _; rw [if_pos rfl])

/-- The gate at row `r`, column `q`: the entry of `h` times the logistic function of the row's score. -/
theorem gate_at (h : (⟨Cert.ReferenceIdeal.S50000x32, .f32⟩ : BufTy).Contents (Elt Ideal))
    (w : (⟨Cert.ReferenceIdeal.S32x1, .f32⟩ : BufTy).Contents (Elt Ideal))
    (b : (⟨Cert.ReferenceIdeal.S1x1, .f32⟩ : BufTy).Contents (Elt Ideal)) (r : Fin 50000) (q : Fin 32) :
    Cert.Spec.gate (F := Ideal) h w b (ix2 r q)
      = h (ix2 r q) * Ideal.logistic (∑ k : Fin 32, h (ix2 r k) * w (ix2 k (0 : Fin 1)) + b (ix2 (0 : Fin 1) (0 : Fin 1))) := by
  unfold Cert.Spec.gate
  refine (ValueIdx.mulf_apply _ _ _).trans (congrArg (h (ix2 r q) * ·) ?_)
  refine (broadcastInDim_apply _ _ _ (ix2 r q) (ix2 r (0 : Fin 1)) (fun a => match a with
    | ⟨0, _⟩ => by show r.val = if (50000 : Nat) = 1 then 0 else r.val; rw [if_neg (by decide)]
    | ⟨1, _⟩ => by show (0 : Nat) = if (1 : Nat) = 1 then 0 else _; rw [if_pos rfl])).trans ?_
  rw [ValueIdx.hostDivf_apply, ValueIdx.addf_apply, hostExp_apply, hostNegf_apply, ValueIdx.addf_apply, oneCol_at,
    wholeDot_apply, biasCol_at]
  rfl

/-! ## The block's payload at an index -/

/-- Entry (p, q) of the body's stored block: the entry of the row block times the logistic function of the row's score. -/
theorem payload_at (x0 : Vec Ideal S5000x32 .f32) (x1 : Vec Ideal S32x1 .f32) (x2 : Vec Ideal S1x1 .f32) (p : Fin 5000) (q : Fin 32) :
    k2_pay1 (F := Ideal) x0 x1 x2 (ix2 p q)
      = x0 (ix2 p q) * Ideal.logistic (∑ k : Fin 32, x0 (ix2 p k) * x1 (ix2 k (0 : Fin 1)) + x2 (ix2 (0 : Fin 1) (0 : Fin 1))) := by
  unfold k2_pay1
  simp only [shapeCast_self]
  refine (ValueIdx.mulf_apply _ _ _).trans (congrArg (x0 (ix2 p q) * ·) ?_)
  refine (broadcastTo_apply _ _ (ix2 p q) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else _; rw [if_pos rfl])).trans ?_
  rw [logistic_apply, ValueIdx.addf_apply, blockDot_apply,
    broadcastTo_apply x2 broadcasts_S1x1_S5000x1 (ix2 p (0 : Fin 1)) (ix2 (0 : Fin 1) (0 : Fin 1)) (fun a => match a with
      | ⟨0, _⟩ => by show (0 : Nat) = if (1 : Nat) = 1 then 0 else _; rw [if_pos rfl]
      | ⟨1, _⟩ => by show (0 : Nat) = if (1 : Nat) = 1 then 0 else _; rw [if_pos rfl])]
  rfl

variable (V : (c : Dev nD) → (b : Ref sig .tc) → Buf (Elt Ideal) ((c : Thread nD τ).loc b))

/-! ## From the blocks to the array -/

theorem offsets_zero : (![0, 0] : Fin 2 → Nat) = fun _ => 0 := funext fun a => by fin_cases a <;> rfl

/-- The printed index maps, decided over the grid: the row-block windows sit at block row `t`, the whole-array
    windows at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of the gate of the three arrays as the region finds them. -/
theorem flushed_eq (c : Dev nD) (t : Fin cfg2.N) :
    (dat2 (F := Ideal) V c).flushed 3 t
      = ((cfg2.win 3).blk t).view.read (Elt Ideal) (Cert.Spec.gate (F := Ideal) (V c main_v63) (V c main_arg6) (V c main_v64)) := by
  show (cfg2.win 3).cut (grid2.coords t) ((dat2 V c).after 3 t) = _
  rw [after2_3]
  unfold out2_3
  rw [View.canon_unit_zero offsets_zero]
  simp only [View.ld_unit_zero (S := S5000x32) offsets_zero, View.ld_unit_zero (S := S32x1) offsets_zero, View.ld_unit_zero (S := S1x1) offsets_zero]
  obtain ⟨e0, e1, e2, e3, e4, e5, e6, e7⟩ := idx_facts t
  funext j
  obtain ⟨p, q, rfl⟩ : ∃ (p : Fin 5000) (q : Fin 32), j = ix2 p q := ⟨j 0, j 1, eq_ix2 j⟩
  have ht : t.val < 10 := t.isLt
  show k2_pay1 (F := Ideal) (iblk2 V c 0 t) (iblk2 V c 1 t) (iblk2 V c 2 t) (ix2 p q)
      = Cert.Spec.gate (F := Ideal) (V c main_v63) (V c main_arg6) (V c main_v64) (((cfg2.win 3).blk t).view.emb (ix2 p q))
  have hemb : ((cfg2.win 3).blk t).view.emb (ix2 p q) = ix2 (⟨5000 * t.val + p.val, by omega⟩ : Fin 50000) q := by
    funext a; apply Fin.ext
    match a with
    | ⟨0, _⟩ => show win2_3.index t (0 : Fin 2) * 5000 + 1 * p.val = 5000 * t.val + p.val; omega
    | ⟨1, _⟩ => show win2_3.index t (1 : Fin 2) * 32 + 1 * q.val = q.val; omega
  have h0 : ∀ k : Fin 32, iblk2 V c 0 t (ix2 p k) = V c main_v63 (ix2 (⟨5000 * t.val + p.val, by omega⟩ : Fin 50000) k) := fun k => by
    show V c main_v63 (((cfg2.win 0).blk t).view.emb (ix2 p k)) = _
    refine congrArg (V c main_v63) (funext fun a => Fin.ext ?_)
    match a with
    | ⟨0, _⟩ => show win2_0.index t (0 : Fin 2) * 5000 + 1 * p.val = 5000 * t.val + p.val; omega
    | ⟨1, _⟩ => show win2_0.index t (1 : Fin 2) * 32 + 1 * k.val = k.val; omega
  have h1 : ∀ k : Fin 32, iblk2 V c 1 t (ix2 k (0 : Fin 1)) = V c main_arg6 (ix2 k (0 : Fin 1)) := fun k => by
    show V c main_arg6 (((cfg2.win 1).blk t).view.emb (ix2 k (0 : Fin 1))) = _
    refine congrArg (V c main_arg6) (funext fun a => Fin.ext ?_)
    match a with
    | ⟨0, _⟩ => show win2_1.index t (0 : Fin 2) * 32 + 1 * k.val = k.val; omega
    | ⟨1, _⟩ => show win2_1.index t (1 : Fin 2) * 1 + 1 * 0 = 0; omega
  have h2 : iblk2 V c 2 t (ix2 (0 : Fin 1) (0 : Fin 1)) = V c main_v64 (ix2 (0 : Fin 1) (0 : Fin 1)) := by
    show V c main_v64 (((cfg2.win 2).blk t).view.emb (ix2 (0 : Fin 1) (0 : Fin 1))) = _
    refine congrArg (V c main_v64) (funext fun a => Fin.ext ?_)
    match a with
    | ⟨0, _⟩ => show win2_2.index t (0 : Fin 2) * 1 + 1 * 0 = 0; omega
    | ⟨1, _⟩ => show win2_2.index t (1 : Fin 2) * 1 + 1 * 0 = 0; omega
  rw [hemb, gate_at, payload_at]
  simp only [h0, h1, h2]

/-- An index of the array is in point `t`'s block iff each coordinate is in the block's range on its axis. -/
theorem mem_blk (t : Fin cfg2.N) (i : S50000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v65).slice (win2_3.rect t)).set ↔ _
  rw [View.set_slice_whole, Rect.mem_set_unit]
  exact Iff.rfl

/-- The ten row blocks tile the array: row `r` lies in the block of point `r / 5000`. -/
theorem cover (i : S50000x32.Idx) :
    ∃ t : Fin cfg2.N, (cfg2.win 3).flush t = true ∧ i ∈ ((cfg2.win 3).blk t).view.set := by
  have hi0 : (i 0).val < 50000 := (i 0).isLt
  have hi1 : (i 1).val < 32 := (i 1).isLt
  obtain ⟨t, ht⟩ : ∃ t : Fin cfg2.N, t.val = (i 0).val / 5000 :=
    ⟨⟨(i 0).val / 5000, by show (i 0).val / 5000 < 10; omega⟩, rfl⟩
  obtain ⟨e0, e1, e2, e3, e4, e5, e6, e7⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 32 ≤ (i 1).val ∧ (i 1).val < win2_3.index t (1 : Fin 2) * 32 + 32; omega

/-- What region 2 leaves in its output array, whatever the buffers hold when it is entered: the gate of its three
    input arrays. -/
theorem value (c : Dev nD) :
    (dat2 (F := Ideal) V c).arrAt 3 cfg2.N
      = Cert.Spec.gate (F := Ideal) (V c main_v63) (V c main_arg6) (V c main_v64) := by
  exact (dat2 (F := Ideal) V c).arrAt_eq_of_cover 3 _ (fun t _ => flushed_eq V c t) cover

end Cert.KernelIdeal.Reg2

end
-- ==== Proof.Result.lean ====
/-
  The kernel program's result as the reference's own function of the arguments. The run is a fold through nine
  segments: host stretch, region, two stretches, region, three stretches, region. At each boundary the buffers a
  later segment reads are named: the edge lists and weights after the first stretch; `x · W1` after the first
  region; the first layer's output after the next stretches; `h1 · W2` after the second region; the second layer's
  output and the gate's bias after the last stretches; the gate after the third region. Every name is a stage of the
  reference, so the last one is the reference's result.
-/
import proofs.«156644_j17540646437727_1_alg».proof.Proof.HostSide
import proofs.«156644_j17540646437727_1_alg».proof.Proof.RefValue
import proofs.«156644_j17540646437727_1_alg».proof.Proof.Region0
import proofs.«156644_j17540646437727_1_alg».proof.Proof.Region1
import proofs.«156644_j17540646437727_1_alg».proof.Proof.Region2

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## After the first stretch -/

theorem W1_src : W1 m ρ c (Proc.devRef .tc main_v3) = Cert.ReferenceIdeal.Read.val_main_v3 (F := Ideal) (m ((c : Thread nD τ).loc main_arg1)) :=
  Host.src_eq (W0 m ρ c)
theorem W1_dst : W1 m ρ c (Proc.devRef .tc main_v6) = Cert.ReferenceIdeal.Read.val_main_v6 (F := Ideal) (m ((c : Thread nD τ).loc main_arg1)) :=
  Host.dst_eq (W0 m ρ c)
theorem W1_ncol : W1 m ρ c (Proc.devRef .tc main_v29) = Cert.ReferenceIdeal.Read.val_main_v37 (F := Ideal) (m ((c : Thread nD τ).loc main_arg1)) :=
  Host.ncol_eq (W0 m ρ c)
theorem W1_arg0 : W1 m ρ c (Proc.devRef .tc main_arg0) = m ((c : Thread nD τ).loc main_arg0) :=
  Host.keep0_arg0 (W0 m ρ c)
theorem W1_arg2 : W1 m ρ c (Proc.devRef .tc main_arg2) = m ((c : Thread nD τ).loc main_arg2) :=
  Host.keep0_arg2 (W0 m ρ c)
theorem W1_arg3 : W1 m ρ c (Proc.devRef .tc main_arg3) = m ((c : Thread nD τ).loc main_arg3) :=
  Host.keep0_arg3 (W0 m ρ c)
theorem W1_arg4 : W1 m ρ c (Proc.devRef .tc main_arg4) = m ((c : Thread nD τ).loc main_arg4) :=
  Host.keep0_arg4 (W0 m ρ c)
theorem W1_arg5 : W1 m ρ c (Proc.devRef .tc main_arg5) = m ((c : Thread nD τ).loc main_arg5) :=
  Host.keep0_arg5 (W0 m ρ c)
theorem W1_arg6 : W1 m ρ c (Proc.devRef .tc main_arg6) = m ((c : Thread nD τ).loc main_arg6) :=
  Host.keep0_arg6 (W0 m ρ c)
theorem W1_arg7 : W1 m ρ c (Proc.devRef .tc main_arg7) = m ((c : Thread nD τ).loc main_arg7) :=
  Host.keep0_arg7 (W0 m ρ c)

/-! ## After the first region -/

/-- The first region leaves `x · W1`. -/
theorem W2_prod : W2 m ρ c (Proc.devRef .tc main_v30) = Cert.ReferenceIdeal.Read.val_main_v29 (F := Ideal) (m ((c : Thread nD τ).loc main_arg0)) (m ((c : Thread nD τ).loc main_arg2)) := by
  refine (W2_arr m ρ c 2).trans ((Reg0.value (V1 m ρ) c).trans ?_)
  rw [show V1 m ρ c main_arg0 = m ((c : Thread nD τ).loc main_arg0) from W1_arg0 m ρ c,
    show V1 m ρ c main_arg2 = m ((c : Thread nD τ).loc main_arg2) from W1_arg2 m ρ c]
  rfl

/-- A buffer that is not one of the first region's arrays is as the first stretch left it. -/
theorem W2_rest (b : Ref sig .tc) (hb : ∀ w, Pipeline.arrRef spec0 w ≠ b) :
    W2 m ρ c (Proc.devRef .tc b) = W1 m ρ c (Proc.devRef .tc b) := W2_of_ne m ρ c b hb

/-! ## After the stretches between the first two regions -/

/-- The second region's input is the first layer's output. -/
theorem W4_h1 : W4 m ρ c (Proc.devRef .tc main_v46) = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) := by
  refine (Host.h1_eq (W2 m ρ c)).trans ?_
  rw [W2_prod m ρ c, W2_rest m ρ c main_v3 (by decide), W2_rest m ρ c main_v6 (by decide), W2_rest m ρ c main_v29 (by decide),
    W2_rest m ρ c main_arg3 (by decide), W1_src m ρ c, W1_dst m ρ c, W1_ncol m ρ c, W1_arg3 m ρ c]
  exact (Cert.ReferenceIdeal.RefValue.layer1_eq _ _ _ _).symm

/-- What the stretches between the first two regions do not write is as the first stretch left it. -/
theorem W4_rest (b : Ref sig .tc) (hb : ∀ w, Pipeline.arrRef spec0 w ≠ b)
    (h1 : after hostOps1_1 (after hostOps1 (W2 m ρ c)) (Proc.devRef .tc b) = W2 m ρ c (Proc.devRef .tc b)) :
    W4 m ρ c (Proc.devRef .tc b) = W1 m ρ c (Proc.devRef .tc b) := h1.trans (W2_rest m ρ c b hb)

/-! ## After the second region -/

/-- The second region leaves `h1 · W2`. -/
theorem W5_prod : W5 m ρ c (Proc.devRef .tc main_v47) = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Reg1.value (V4 m ρ) c).trans ?_)
  rw [show V4 m ρ c main_v46 = _ from W4_h1 m ρ c,
    show V4 m ρ c main_arg4 = m ((c : Thread nD τ).loc main_arg4) from
      (W4_rest m ρ c main_arg4 (by decide) (Host.keep1_arg4 _)).trans (W1_arg4 m ρ c)]
  rfl

/-- A buffer that is not one of the second region's arrays, and that the stretches before it do not write, is as the first stretch left it. -/
theorem W5_rest (b : Ref sig .tc) (hb1 : ∀ w, Pipeline.arrRef spec1 w ≠ b) (hb0 : ∀ w, Pipeline.arrRef spec0 w ≠ b)
    (h1 : after hostOps1_1 (after hostOps1 (W2 m ρ c)) (Proc.devRef .tc b) = W2 m ρ c (Proc.devRef .tc b)) :
    W5 m ρ c (Proc.devRef .tc b) = W1 m ρ c (Proc.devRef .tc b) :=
  (W5_of_ne m ρ c b hb1).trans (W4_rest m ρ c b hb0 h1)

/-! ## After the stretches between the last two regions -/

/-- The third region's first input is the second layer's output. -/
theorem W8_h2 : W8 m ρ c (Proc.devRef .tc main_v63) = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (Host.h2_eq (W5 m ρ c)).trans ?_
  rw [W5_prod m ρ c, W5_rest m ρ c main_v3 (by decide) (by decide) (Host.keep1_v3 _),
    W5_rest m ρ c main_v6 (by decide) (by decide) (Host.keep1_v6 _),
    W5_rest m ρ c main_v29 (by decide) (by decide) (Host.keep1_v29 _),
    W5_rest m ρ c main_arg5 (by decide) (by decide) (Host.keep1_arg5 _),
    W1_src m ρ c, W1_dst m ρ c, W1_ncol m ρ c, W1_arg5 m ρ c]
  exact (Cert.ReferenceIdeal.RefValue.layer2_eq _ _ _ _ _ _).symm

instance : Subsingleton S1.Idx := ⟨fun a b => funext fun d => by
  have hd : d = 0 := Fin.ext (by have h : d.val < 1 := d.isLt; show d.val = 0; omega)
  subst hd
  apply Fin.ext
  have ha : (a 0).val < 1 := (a 0).isLt
  have hb : (b 0).val < 1 := (b 0).isLt
  omega⟩

/-- A one-entry vector laid out as a 1×1 array by a reshape or by a broadcast along a new axis is the same array. -/
theorem bias_layout (x : S1.Idx → Elt Ideal .f32) :
    shapeCast S1x1 x Facts₀.shapeCasts_S1_S1x1 = Cert.ReferenceIdeal.Read.val_main_v66 (F := Ideal) x := by
  funext j
  unfold Cert.ReferenceIdeal.Read.val_main_v66 shapeCast broadcastInDim
  exact congrArg x (Subsingleton.elim _ _)

/-- The third region's bias input is the reference's 1×1 bias. -/
theorem W8_bias : W8 m ρ c (Proc.devRef .tc main_v64) = Cert.ReferenceIdeal.Read.val_main_v66 (F := Ideal) (m ((c : Thread nD τ).loc main_arg7)) := by
  refine (Host.b11_eq (W5 m ρ c)).trans ?_
  rw [W5_rest m ρ c main_arg7 (by decide) (by decide) (Host.keep1_arg7 _), W1_arg7 m ρ c]
  exact bias_layout _

theorem W8_w : W8 m ρ c (Proc.devRef .tc main_arg6) = m ((c : Thread nD τ).loc main_arg6) :=
  (Host.keep2_arg6 (W5 m ρ c)).trans ((W5_rest m ρ c main_arg6 (by decide) (by decide) (Host.keep1_arg6 _)).trans (W1_arg6 m ρ c))

/-! ## After the third region -/

/-- THE RESULT: the kernel program's result buffer ends at the reference's result term of the arguments. -/
theorem result : W9 m ρ c (Proc.devRef .tc main_v65) = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 3).trans ((Reg2.value (V8 m ρ) c).trans ?_)
  rw [show V8 m ρ c main_v63 = _ from W8_h2 m ρ c, show V8 m ρ c main_arg6 = _ from W8_w m ρ c,
    show V8 m ρ c main_v64 = _ from W8_bias m ρ c]
  exact (Cert.ReferenceIdeal.RefValue.result_eq _ _ _ _ _ _ _ _).symm

end Cert.KernelIdeal.Result

end
-- ==== Proof.lean ====
/-
  A two-layer graph convolution with an attention gate: `out = h2 · σ(h2·w + b)`, `h_{l+1} = relu (Â (h_l W_l) + b_l)`,
  `Â` the adjacency with self-loops normalised by `deg^(-1/2)` on both sides. The kernel program computes the three
  dense products (`x·W1`, `h1·W2`, and the gate's `h2·w` with the logistic function and the product back onto `h2`)
  in three pipelined regions of ten row blocks each, and everything else — building `Â`'s edge lists and weights,
  the gathers, the scatter-adds, bias and relu — on the host, with the very operations the reference uses.

  At the ideal values the two programs are one function of the arguments:
  * a region's row blocks tile the 50000 rows, and a block of a matrix product is the product of the block of rows, so
    each of the first two regions leaves the whole product `∑ₖ a[i,k]·w[k,j]`, the host's `dot_general`; the
    conversions to bf16 in the kernel are the identity on extended reals;
  * the third region's row block is `h[r,q] · logistic (∑ₖ h[r,k]·w[k,0] + b)`, and `logistic z = 1 / (1 + exp (−z))`
    is the expression the reference spells with negate, exponential, add and divide;
  * the host stretches between the regions are the reference's operations, read as the same functions of the buffers
    they start from.
  No algebraic law beyond these identities is used, so the precondition (finite inputs) is never opened.
  The frames of the two kernel programs are the generated ones; the reference's is its generated run with the result
  dropped; the ideal pass rewrote nothing, so the kernel's idealization is the program's own text.
-/
import proofs.«156644_j17540646437727_1_alg».proof.Defs
import proofs.«156644_j17540646437727_1_alg».proof.Proof.Gen.Kernel
import proofs.«156644_j17540646437727_1_alg».proof.Proof.Gen.Kernel.Frame
import proofs.«156644_j17540646437727_1_alg».proof.Proof.Gen.KernelIdeal
import proofs.«156644_j17540646437727_1_alg».proof.Proof.Gen.KernelIdeal.Frame
import proofs.«156644_j17540646437727_1_alg».proof.Proof.Gen.ReferenceIdeal
import proofs.«156644_j17540646437727_1_alg».proof.Proof.Gen.ReferenceIdeal.Run
import proofs.«156644_j17540646437727_1_alg».proof.Proof.Gen.ReferenceIdeal.Read
import proofs.«156644_j17540646437727_1_alg».proof.Proof.Gen.Pre_finite_inputs
import proofs.«156644_j17540646437727_1_alg».proof.Proof.KernelRun
import proofs.«156644_j17540646437727_1_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's result term of the arguments:
    the kernel program by the fold through its segments, the reference by its run. -/
theorem algebraic : Cert.algebraic_KernelIdeal_ReferenceIdeal := by
  intro m ρ m' ρ' _ hagree
  refine ⟨fun c => Cert.KernelIdeal.Gen.W9 m ρ c (Proc.devRef .tc Cert.KernelIdeal.main_v65),
    Cert.KernelIdeal.Out.run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.Result.result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
